-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S64x192 : Shape := ⟨2, ![64, 192]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x192 : S_.BroadcastsInDim S64x192 (![] : Fin 0 → Fin S64x192.rank)
  reducesTo_S64x192_S_d0_1 : S64x192.ReducesTo [0, 1] S_

variable [Facts]

def fn {F : FTy → Type} [FloatOps F] (main_arg0 : FVec F S16384x64 .f32) (main_arg1 : FVec F S64x192 .f32) (main_arg2 : FVec F S64x192 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x192 .f32 := Host.absf main_arg1
  let main_cst_0 : FVec F S_ .f32 := constant S_ .f32 0x7F800000#32
  let main_v5 : FVec F S64x192 .f32 := broadcastInDim S64x192 ![] bcast_S_S64x192 main_cst_0
  let main_v6 : IVec S64x192 1 := cmpf .olt main_v4 main_v5
  let main_c_1 : IVec S_ 1 := constantI S_ 1 1#1
  let main_v7 : IVec S_ 1 := (fun x v => Host.reduce IntOp.andi x v reducesTo_S64x192_S_d0_1 h_S_) main_v6 main_c_1
  let main_v8 : IVec S_ 1 := andi main_v3 main_v7
  let main_v9 : FVec F S64x192 .f32 := Host.absf main_arg2
  let main_cst_2 : FVec F S_ .f32 := constant S_ .f32 0x7F800000#32
  let main_v10 : FVec F S64x192 .f32 := broadcastInDim S64x192 ![] bcast_S_S64x192 main_cst_2
  let main_v11 : IVec S64x192 1 := cmpf .olt main_v9 main_v10
  let main_c_3 : IVec S_ 1 := constantI S_ 1 1#1
  let main_v12 : IVec S_ 1 := (fun x v => Host.reduce IntOp.andi x v reducesTo_S64x192_S_d0_1 h_S_) main_v11 main_c_3
  let main_v13 : IVec S_ 1 := andi main_v8 main_v12
  main_v13
-- ==== Kernel.lean ====
abbrev S16384x64 : Shape := ⟨2, ![16384, 64]⟩
abbrev S64x192 : Shape := ⟨2, ![64, 192]⟩
abbrev S16384x64x192 : Shape := ⟨3, ![16384, 64, 192]⟩
abbrev S128x64 : Shape := ⟨2, ![128, 64]⟩
abbrev S128x64x192 : Shape := ⟨3, ![128, 64, 192]⟩
abbrev S128x64x1 : Shape := ⟨3, ![128, 64, 1]⟩
abbrev S1x64x192 : Shape := ⟨3, ![1, 64, 192]⟩

abbrev nBuf : Space → Nat
  | .hbm => 4
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S64x192, .f32⟩
  | .hbm, ⟨2, _⟩ => ⟨S64x192, .f32⟩
  | .hbm, ⟨3, _⟩ => ⟨S16384x64x192, .f32⟩
  | .local _ .vmem, ⟨0, _⟩ => ⟨S128x64, .f32⟩
  | .local _ .vmem, ⟨1, _⟩ => ⟨S128x64, .f32⟩
  | .local _ .vmem, ⟨2, _⟩ => ⟨S64x192, .f32⟩
  | .local _ .vmem, ⟨3, _⟩ => ⟨S64x192, .f32⟩
  | .local _ .vmem, ⟨4, _⟩ => ⟨S128x64x192, .f32⟩
  | .local _ .vmem, ⟨5, _⟩ => ⟨S128x64x192, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x64x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x64_S128x64_0_0 : ∀ a, (![0, 0] : Fin 2 → Nat) a + S128x64.size a ≤ S128x64.size a
  h_S128x64 : 0 < S128x64.numel
  inb_S64x192_S64x192_0_0 : ∀ a, (![0, 0] : Fin 2 → Nat) a + S64x192.size a ≤ S64x192.size a
  h_S64x192 : 0 < S64x192.numel
  shapeCasts_S128x64_S128x64x1 : S128x64.ShapeCasts S128x64x1
  shapeCasts_S64x192_S1x64x192 : S64x192.ShapeCasts S1x64x192
  broadcasts_S128x64x1_S128x64x192 : S128x64x1.Broadcasts S128x64x192
  broadcasts_S1x64x192_S128x64x192 : S1x64x192.Broadcasts S128x64x192
  inb_S128x64x192_S128x64x192_0_0_0 : ∀ a, (![0, 0, 0] : Fin 3 → Nat) a + S128x64x192.size a ≤ S128x64x192.size a
  h_S128x64x192 : 0 < S128x64x192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S16384x64.size a
  hwx0_0 : ∀ i : grid0.Coords, EltTy.bits .f32 = 32 ∨ (Rect.block (s := S16384x64) S128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x192.size a ≤ S64x192.size a
  hwx0_2 : ∀ i : grid0.Coords, EltTy.bits .f32 = 32 ∨ (Rect.block (s := S64x192) S64x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64x192.size a ≤ S16384x64x192.size a
  hwx0_3 : ∀ i : grid0.Coords, EltTy.bits .f32 = 32 ∨ (Rect.block (s := S16384x64x192) S128x64x192.size (cc0_transform_3 i) (hinb0_3 i)).WholeWords (EltTy.packing .f32)

variable [Facts₀]

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x64x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x64 : Shape := ⟨2, ![16384, 64]⟩
abbrev S64x192 : Shape := ⟨2, ![64, 192]⟩
abbrev S16384x64x1 : Shape := ⟨3, ![16384, 64, 1]⟩
abbrev S1x64x192 : Shape := ⟨3, ![1, 64, 192]⟩
abbrev S16384x64x192 : Shape := ⟨3, ![16384, 64, 192]⟩

abbrev nBuf : Space → Nat
  | .hbm => 11
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64x192, .f32⟩
  | .hbm, ⟨2, _⟩ => ⟨S64x192, .f32⟩
  | .hbm, ⟨3, _⟩ => ⟨S16384x64x1, .f32⟩
  | .hbm, ⟨4, _⟩ => ⟨S1x64x192, .f32⟩
  | .hbm, ⟨5, _⟩ => ⟨S16384x64x192, .f32⟩
  | .hbm, ⟨6, _⟩ => ⟨S16384x64x192, .f32⟩
  | .hbm, ⟨7, _⟩ => ⟨S16384x64x192, .f32⟩
  | .hbm, ⟨8, _⟩ => ⟨S1x64x192, .f32⟩
  | .hbm, ⟨9, _⟩ => ⟨S16384x64x192, .f32⟩
  | .hbm, ⟨10, _⟩ => ⟨S16384x64x192, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S16384x64_S16384x64x1_0_1 : S16384x64.BroadcastsInDim S16384x64x1 (![0, 1] : Fin 2 → Fin S16384x64x1.rank)
  bcast_S64x192_S1x64x192_1_2 : S64x192.BroadcastsInDim S1x64x192 (![1, 2] : Fin 2 → Fin S1x64x192.rank)
  bcast_S16384x64x1_S16384x64x192_0_1_2 : S16384x64x1.BroadcastsInDim S16384x64x192 (![0, 1, 2] : Fin 3 → Fin S16384x64x192.rank)
  bcast_S1x64x192_S16384x64x192_0_1_2 : S1x64x192.BroadcastsInDim S16384x64x192 (![0, 1, 2] : Fin 3 → Fin S16384x64x192.rank)

variable [Facts₀]

class Facts : Prop extends Facts₀ where

variable [Facts]
-- ==== Proof.EmbedSpec.lean ====
/-
  The numerical-feature embedding as ONE function of its three argument arrays.

  A table row `r` carries 64 scalar features; feature `f` owns a weight vector `W[f, ·]` and a bias vector
  `b[f, ·]` of length 192. The embedding of feature `f` of row `r` is the affine image of the scalar:

      out[r, f, d] = x[r, f] · W[f, d] + b[f, d].

  Entry `(r, f, d)` of the result therefore depends on exactly three entries of the arguments: `x` at `(r, f)`
  (the output index with its last coordinate dropped) and `W`, `b` at `(f, d)` (the output index with its first
  coordinate dropped). The function is stated over any float instance: one product and one sum per entry, in that
  order, so no law of the arithmetic is used to compare two programs that both compute it this way.
-/
import Idealize.ShloMosaic.Lib.ValueIdx

noncomputable section

namespace Cert.Embed

open Idealize.ShloMosaic Idealize.ShloMosaic.ValueIdx

variable {F : FTy → Type} [FloatOps F]

/-- The feature matrix: 16384 rows of 64 scalar features. -/
abbrev Feats : Shape := ⟨2, ![16384, 64]⟩
/-- The per-feature weight (or bias) table: 64 features, 192 embedding coordinates each. -/
abbrev Table : Shape := ⟨2, ![64, 192]⟩
/-- The embedded features: row, feature, embedding coordinate. -/
abbrev Embedded : Shape := ⟨3, ![16384, 64, 192]⟩

/-- The scalar feature an output entry scales: the output index without its embedding coordinate. -/
abbrev featAt (i : Embedded.Idx) : Feats.Idx := ix2 (n0 := 16384) (n1 := 64) (i 0) (i 1)

/-- The weight (and bias) an output entry uses: the output index without its row. -/
abbrev tableAt (i : Embedded.Idx) : Table.Idx := ix2 (n0 := 64) (n1 := 192) (i 1) (i 2)

/-- `out[r, f, d] = x[r, f] · W[f, d] + b[f, d]`. -/
abbrev embed (x : Feats.Idx → Elt F .f32) (w b : Table.Idx → Elt F .f32) : Embedded.Idx → Elt F .f32 :=
  fun i => FloatOps.addf (FloatOps.mulf (x (featAt i)) (w (tableAt i))) (b (tableAt i))

end Cert.Embed

end
-- ==== Proof.EmbedReference.lean ====
/-
  The reference computes the embedding.

  The reference lays the three arguments out on the result's index set by broadcasting — `x` first gains a unit
  last axis and is then repeated along it, `W` and `b` first gain a unit first axis and are then repeated along it —
  and multiplies and adds entry by entry. Read at an output index `(r, f, d)`, a repetition along an axis forgets that
  axis's coordinate, so the two broadcasts of `x` read it at `(r, f)` and the two broadcasts of `W` (of `b`) read
  it at `(f, d)`: the reference's result is `x[r, f] · W[f, d] + b[f, d]`, the embedding, at every float instance.
-/
import proofs.«161831_j55997783605810_1_alg».proof.Proof.Gen.ReferenceIdeal.Read
import proofs.«161831_j55997783605810_1_alg».proof.Proof.EmbedSpec

noncomputable section

namespace Cert.ReferenceIdeal.EmbedRef

open Cert.ReferenceIdeal Cert.ReferenceIdeal.Read Idealize.ShloMosaic Idealize.ShloMosaic.ValueIdx

variable {F : FTy → Type} [FloatOps F]

/-- The two broadcasts of `x` read it at the output index without its embedding coordinate. -/
theorem feat_index (i : S16384x64x192.Idx) : idx_main_v0 (idx_main_v2 i) = Cert.Embed.featAt i :=
  funext fun a => by match a with | ⟨0, _⟩ => rfl | ⟨1, _⟩ => rfl

/-- The two broadcasts of `W` read it at the output index without its row. -/
theorem weight_index (i : S16384x64x192.Idx) : idx_main_v1 (idx_main_v3 i) = Cert.Embed.tableAt i :=
  funext fun a => by match a with | ⟨0, _⟩ => rfl | ⟨1, _⟩ => rfl

/-- The two broadcasts of `b` read it at the output index without its row. -/
theorem bias_index (i : S16384x64x192.Idx) : idx_main_v5 (idx_main_v6 i) = Cert.Embed.tableAt i :=
  funext fun a => by match a with | ⟨0, _⟩ => rfl | ⟨1, _⟩ => rfl

/-- The reference's last stage is the embedding of its arguments, entry by entry. -/
theorem result_eq (x : (⟨S16384x64, .f32⟩ : BufTy).Contents (Elt F)) (w b : (⟨S64x192, .f32⟩ : BufTy).Contents (Elt F)) :
    val_main_v7 (F := F) x w b = Cert.Embed.embed (F := F) x w b := by
  funext i
  rw [val_main_v7_apply, val_main_v4_apply, val_main_v2_apply, val_main_v0_apply, val_main_v3_apply, val_main_v1_apply,
    val_main_v6_apply, val_main_v5_apply, feat_index, weight_index, bias_index]

end Cert.ReferenceIdeal.EmbedRef

end
-- ==== Proof.EmbedBlocks.lean ====
/-
  The kernel's result array is the embedding of its arguments.

  The grid has 128 points; point `t` works on rows `128·t … 128·t + 127`. It is handed the block of `x` holding
  those rows (all 64 features), the whole of `W` and the whole of `b`, and writes back the block of the result holding
  those rows (all features, all embedding coordinates). The body leaves in that block, at `(p, f, d)`,
  `xblock[p, f] · W[f, d] + b[f, d]` (the generated value leg reads the body's casts and broadcasts down to this).
  Since entry `(p, f)` of point `t`'s block of `x` is `x[128·t + p, f]`, what point `t` writes back is the
  restriction of the embedding to its rows. Row `r` lies in the block of point `r / 128`, so the 128 blocks cover
  the result array, which therefore ends holding the embedding everywhere.
-/
import proofs.«161831_j55997783605810_1_alg».proof.Proof.Gen.KernelIdeal.Value
import proofs.«161831_j55997783605810_1_alg».proof.Proof.EmbedSpec

noncomputable section

namespace Cert.KernelIdeal.EmbedValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem origin2 : (![0, 0] : Fin 2 → Nat) = fun _ => 0 := funext fun a => by fin_cases a <;> rfl

/-- What the body leaves in the output block, at an index of the block: the product of the `x` block's entry at the
    index without its last coordinate with `W`'s entry at the index without its first, plus `b`'s entry there. The
    loads are of whole blocks, and the one store's value is read by the generated value leg. -/
theorem block_apply (x0 : Vec F S128x64 .f32) (x1 x2 : Vec F S64x192 .f32) (y : S128x64x192.Idx) :
    out0_3 x0 x1 x2 y = FloatOps.addf (FloatOps.mulf (x0 (ix3_0 y)) (x1 (ix3_1 y))) (x2 (ix3_2 y)) := by
  unfold out0_3
  simp only [View.ld_unit_zero (S := S128x64) origin2, View.ld_unit_zero (S := S64x192) origin2]
  exact canon3_eq x0 x1 x2 y

/-- The printed index maps over the 128 points: the block of `x` and the block of the result sit at block row `t`
    and block column(s) 0; `W` and `b` are always at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- WHAT POINT `t` WRITES BACK is the embedding of the argument arrays, restricted to point `t`'s rows. -/
theorem flushed_eq (c : Dev nD) (t : Fin cfg0.N) :
    (dats m 0 c).flushed 3 t
      = ((cfg0.win 3).blk t).view.read (Elt F) (Cert.Embed.embed (F := F) (V m c main_arg0) (V m c main_arg1) (V m c main_arg2)) := by
  rw [flushed3]
  obtain ⟨e00, e01, e10, e11, e20, e21, e30, e31, e32⟩ := index_maps t
  funext y
  refine (block_apply (iblk m c 0 t) (iblk m c 1 t) (iblk m c 2 t) y).trans ?_
  show FloatOps.addf (FloatOps.mulf (V m c main_arg0 (((cfg0.win 0).blk t).view.emb (ix3_0 y)))
        (V m c main_arg1 (((cfg0.win 1).blk t).view.emb (ix3_1 y)))) (V m c main_arg2 (((cfg0.win 2).blk t).view.emb (ix3_2 y)))
    = FloatOps.addf (FloatOps.mulf (V m c main_arg0 (Cert.Embed.featAt (((cfg0.win 3).blk t).view.emb y)))
        (V m c main_arg1 (Cert.Embed.tableAt (((cfg0.win 3).blk t).view.emb y)))) (V m c main_arg2 (Cert.Embed.tableAt (((cfg0.win 3).blk t).view.emb y)))
  have hx : ((cfg0.win 0).blk t).view.emb (ix3_0 y) = Cert.Embed.featAt (((cfg0.win 3).blk t).view.emb y) := by
    funext a; apply Fin.ext
    match a with
    | ⟨0, _⟩ => show win0_0.index t (0 : Fin 2) * 128 + 1 * (y 0).val = win0_3.index t (0 : Fin 3) * 128 + 1 * (y 0).val; omega
    | ⟨1, _⟩ => show win0_0.index t (1 : Fin 2) * 64 + 1 * (y 1).val = win0_3.index t (1 : Fin 3) * 64 + 1 * (y 1).val; omega
  have hw : ((cfg0.win 1).blk t).view.emb (ix3_1 y) = Cert.Embed.tableAt (((cfg0.win 3).blk t).view.emb y) := by
    funext a; apply Fin.ext
    match a with
    | ⟨0, _⟩ => show win0_1.index t (0 : Fin 2) * 64 + 1 * (y 1).val = win0_3.index t (1 : Fin 3) * 64 + 1 * (y 1).val; omega
    | ⟨1, _⟩ => show win0_1.index t (1 : Fin 2) * 192 + 1 * (y 2).val = win0_3.index t (2 : Fin 3) * 192 + 1 * (y 2).val; omega
  have hb : ((cfg0.win 2).blk t).view.emb (ix3_2 y) = Cert.Embed.tableAt (((cfg0.win 3).blk t).view.emb y) := by
    funext a; apply Fin.ext
    match a with
    | ⟨0, _⟩ => show win0_2.index t (0 : Fin 2) * 64 + 1 * (y 1).val = win0_3.index t (1 : Fin 3) * 64 + 1 * (y 1).val; omega
    | ⟨1, _⟩ => show win0_2.index t (1 : Fin 2) * 192 + 1 * (y 2).val = win0_3.index t (2 : Fin 3) * 192 + 1 * (y 2).val; omega
  rw [hx, hw, hb]

/-- An index of the result array is in point `t`'s block iff each coordinate is in the block's range on its axis. -/
theorem mem_block (t : Fin cfg0.N) (i : S16384x64x192.Idx) :
    i ∈ ((cfg0.win 3).blk t).view.set ↔ ∀ a : Fin 3, win0_3.index t a * S128x64x192.size a ≤ (i a).val
      ∧ (i a).val < win0_3.index t a * S128x64x192.size a + S128x64x192.size a := by
  show i ∈ ((View.whole main_v0).slice (win0_3.rect t)).set ↔ _
  rw [View.set_slice_whole, Rect.mem_set_unit]
  exact Iff.rfl

/-- Every block row is some point's. -/
theorem point_of_block_row : ∀ q : Fin 128, ∃ t : Fin cfg0.N, win0_3.index t = ![q.val, 0, 0] :=
  (by decide +kernel : ∀ q : Fin 128, ∃ t : Fin grid0.N, win0_3.index t = ![q.val, 0, 0])

/-- THE BLOCKS COVER THE RESULT: row `r` is in the block of the point whose block row is `r / 128`. -/
theorem covered (i : S16384x64x192.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have hi2 : (i 2).val < 192 := (i 2).isLt
  obtain ⟨t, ht⟩ := point_of_block_row ⟨(i 0).val / 128, by omega⟩
  have q0 : win0_3.index t (0 : Fin 3) = (i 0).val / 128 := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 128 ≤ (i 0).val ∧ (i 0).val < win0_3.index t (0 : Fin 3) * 128 + 128; omega
  | ⟨1, _⟩ => show win0_3.index t (1 : Fin 3) * 64 ≤ (i 1).val ∧ (i 1).val < win0_3.index t (1 : Fin 3) * 64 + 64; omega
  | ⟨2, _⟩ => show win0_3.index t (2 : Fin 3) * 192 ≤ (i 2).val ∧ (i 2).val < win0_3.index t (2 : Fin 3) * 192 + 192; omega

/-- THE RESULT ARRAY after the run is the embedding of the argument arrays. -/
theorem final (c : Dev nD) :
    (dats m 0 c).arrAt 3 cfg0.N
      = Cert.Embed.embed (F := F) (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: every weakly fair execution ends with the result array at the embedding of the arguments
    and the arguments unchanged. -/
theorem run : θ_run defs (onTc (τ := τ) (main (F := F))) ⟨m, fun _ => 0, ρ⟩ fun r => ∀ c : Dev nD,
      r.2.mem ((c : Thread nD τ).loc main_v0)
        = Cert.Embed.embed (F := F) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.EmbedValue

end
-- ==== Proof.lean ====
/-
  A numerical-feature embedding kernel against its jnp reference, over the extended reals.

  Both programs take a feature matrix `x` (16384 rows, 64 features), a weight table `W` and a bias table `b`
  (64 features, 192 embedding coordinates) and return `out[r, f, d] = x[r, f] · W[f, d] + b[f, d]`.

  The kernel tiles the rows: grid point `t` loads rows `128·t … 128·t + 127` of `x` and the whole of `W` and `b`,
  lays them out on the block's index set by a cast and a broadcast each, multiplies, adds, and stores the block whole.
  The reference broadcasts the three whole arrays onto the result's index set and multiplies and adds. At every output
  entry both perform the same product followed by the same sum of the same three argument entries, so the two results
  are equal entry by entry with no appeal to any law of the arithmetic, and the finiteness of the inputs is never used.

    * `Proof/EmbedSpec.lean`      the embedding as one function of the argument arrays;
    * `Proof/EmbedReference.lean` the reference's result is that function (each broadcast read at an index);
    * `Proof/EmbedBlocks.lean`    the kernel's result array is that function (what a point writes back is the
                                  function on the point's rows; the 128 row blocks cover the array).

  The three frames are the kernel's generated frame at both instances and the reference's generated run with its result
  dropped; the idealization rewrote no operation, so there is nothing to preserve.
-/
import proofs.«161831_j55997783605810_1_alg».proof.Defs
import proofs.«161831_j55997783605810_1_alg».proof.Proof.Gen.Kernel
import proofs.«161831_j55997783605810_1_alg».proof.Proof.Gen.Kernel.Skeleton
import proofs.«161831_j55997783605810_1_alg».proof.Proof.Gen.Kernel.Launch
import proofs.«161831_j55997783605810_1_alg».proof.Proof.Gen.Kernel.Points
import proofs.«161831_j55997783605810_1_alg».proof.Proof.Gen.Kernel.Frame
import proofs.«161831_j55997783605810_1_alg».proof.Proof.Gen.KernelIdeal
import proofs.«161831_j55997783605810_1_alg».proof.Proof.Gen.KernelIdeal.Skeleton
import proofs.«161831_j55997783605810_1_alg».proof.Proof.Gen.KernelIdeal.Launch
import proofs.«161831_j55997783605810_1_alg».proof.Proof.Gen.KernelIdeal.Points
import proofs.«161831_j55997783605810_1_alg».proof.Proof.Gen.KernelIdeal.Frame
import proofs.«161831_j55997783605810_1_alg».proof.Proof.Gen.ReferenceIdeal
import proofs.«161831_j55997783605810_1_alg».proof.Proof.Gen.Pre_finite_inputs
import proofs.«161831_j55997783605810_1_alg».proof.Proof.Gen.KernelIdeal.Value
import proofs.«161831_j55997783605810_1_alg».proof.Proof.Gen.ReferenceIdeal.Run
import proofs.«161831_j55997783605810_1_alg».proof.Proof.Gen.ReferenceIdeal.Read
import proofs.«161831_j55997783605810_1_alg».proof.Proof.EmbedSpec
import proofs.«161831_j55997783605810_1_alg».proof.Proof.EmbedReference
import proofs.«161831_j55997783605810_1_alg».proof.Proof.EmbedBlocks
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the embedding of its arguments, and the reference's result
    at the embedding of its own; the arguments agree, so the results are equal entry by entry. -/
theorem algebraic : Cert.algebraic_KernelIdeal_ReferenceIdeal := by
  intro m ρ m' ρ' _ hagree
  refine ⟨_, Cert.KernelIdeal.EmbedValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.EmbedRef.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
